-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x12x1024 : Shape := ⟨4, ![32, 64, 12, 1024]⟩
abbrev S3x64x64 : Shape := ⟨3, ![3, 64, 64]⟩
abbrev S64 : Shape := ⟨1, ![64]⟩
abbrev S1024x3072 : Shape := ⟨2, ![1024, 3072]⟩
abbrev S_ : Shape := ⟨0, ![]⟩

class Facts : Prop where
  bcast_S_S32x64x12x1024 : S_.BroadcastsInDim S32x64x12x1024 (![] : Fin 0 → Fin S32x64x12x1024.rank)
  reducesTo_S32x64x12x1024_S_d0_1_2_3 : S32x64x12x1024.ReducesTo [0, 1, 2, 3] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_
  bcast_S_S1024x3072 : S_.BroadcastsInDim S1024x3072 (![] : Fin 0 → Fin S1024x3072.rank)
  reducesTo_S1024x3072_S_d0_1 : S1024x3072.ReducesTo [0, 1] S_

variable [Facts]

def fn_part1 {F : FTy → Type} [FloatOps F] (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  main_v18

def fn {F : FTy → Type} [FloatOps F] (main_arg0 : FVec F S32x64x12x1024 .f32) (main_arg1 : FVec F S3x64x64 .f32) (main_arg2 : FVec F S64 .f32) (main_arg3 : FVec F S1024x3072 .f32) : IVec S_ 1 :=
  let main_v0 : FVec F S32x64x12x1024 .f32 := Host.absf main_arg0
  let main_cst : FVec F S_ .f32 := constant S_ .f32 0x7F800000#32
  let main_v1 : FVec F S32x64x12x1024 .f32 := broadcastInDim S32x64x12x1024 ![] bcast_S_S32x64x12x1024 main_cst
  let main_v2 : IVec S32x64x12x1024 1 := cmpf .olt main_v0 main_v1
  let main_c : IVec S_ 1 := constantI S_ 1 1#1
  let main_v3 : IVec S_ 1 := (fun x v => Host.reduce IntOp.andi x v reducesTo_S32x64x12x1024_S_d0_1_2_3 h_S_) main_v2 main_c
  let main_v4 : FVec F S3x64x64 .f32 := Host.absf main_arg1
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_v13 main_v16
-- ==== Kernel.lean ====
abbrev S32x64x12x1024 : Shape := ⟨4, ![32, 64, 12, 1024]⟩
abbrev S3x64x64 : Shape := ⟨3, ![3, 64, 64]⟩
abbrev S64 : Shape := ⟨1, ![64]⟩
abbrev S1024x3072 : Shape := ⟨2, ![1024, 3072]⟩
abbrev S393216x64 : Shape := ⟨2, ![393216, 64]⟩
abbrev S64x192 : Shape := ⟨2, ![64, 192]⟩
abbrev S393216x192 : Shape := ⟨2, ![393216, 192]⟩
abbrev S16384x64 : Shape := ⟨2, ![16384, 64]⟩
abbrev S16384x192 : Shape := ⟨2, ![16384, 192]⟩
abbrev S3072x24576 : Shape := ⟨2, ![3072, 24576]⟩
abbrev S1024x24576 : Shape := ⟨2, ![1024, 24576]⟩
abbrev S3072x1024 : Shape := ⟨2, ![3072, 1024]⟩
abbrev S1024x1024 : Shape := ⟨2, ![1024, 1024]⟩
abbrev S32x12x1024x64 : Shape := ⟨4, ![32, 12, 1024, 64]⟩
abbrev S1x12x1024x64 : Shape := ⟨4, ![1, 12, 1024, 64]⟩
abbrev S1x64x12x1024 : Shape := ⟨4, ![1, 64, 12, 1024]⟩
abbrev S1x1x1x64 : Shape := ⟨4, ![1, 1, 1, 64]⟩

abbrev nBuf : Space → Nat
  | .hbm => 13
  | .vmem => 17
  | .smem => 0
  | _ => 0

abbrev bufTy : (tb : Table) → Fin (tcTables nBuf tb) → BufTy
  | .hbm, ⟨0, _⟩ => ⟨S32x64x12x1024, .f32⟩
  | .hbm, ⟨1, _⟩ => ⟨S3x64x64, .f32⟩
  | .hbm, ⟨2, _⟩ => ⟨S64, .f32⟩
  | .hbm, ⟨3, _⟩ => ⟨S1024x3072, .f32⟩
  | .hbm, ⟨4, _⟩ => ⟨S393216x64, .f32⟩
  | .hbm, ⟨5, _⟩ => ⟨S64x192, .f32⟩
  | .hbm, ⟨6, _⟩ => ⟨S393216x192, .bf16⟩
  | .hbm, ⟨7, _⟩ => ⟨S3072x24576, .bf16⟩
  | .hbm, ⟨8, _⟩ => ⟨S1024x3072, .bf16⟩
  | .hbm, ⟨9, _⟩ => ⟨S1024x24576, .bf16⟩
  | .hbm, ⟨10, _⟩ => ⟨S393216x64, .bf16⟩
  | .hbm, ⟨11, _⟩ => ⟨S32x12x1024x64, .bf16⟩
  | .hbm, ⟨12, _⟩ => ⟨S32x64x12x1024, .f32⟩
  | .local _ .vmem, ⟨0, _⟩ => ⟨S16384x64, .f32⟩
  | .local _ .vmem, ⟨1, _⟩ => ⟨S16384x64, .f32⟩
  | .local _ .vmem, ⟨2, _⟩ => ⟨S64x192, .f32⟩
  | .local _ .vmem, ⟨3, _⟩ => ⟨S16384x192, .bf16⟩
  | .local _ .vmem, ⟨4, _⟩ => ⟨S16384x192, .bf16⟩
  | .local _ .vmem, ⟨5, _⟩ => ⟨S1024x3072, .bf16⟩
  | .local _ .vmem, ⟨6, _⟩ => ⟨S3072x1024, .bf16⟩
  | .local _ .vmem, ⟨7, _⟩ => ⟨S3072x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x12x1024x64, .bf16⟩
  | .local _ .vmem, ⟨11, _⟩ => ⟨S1x12x1024x64, .bf16⟩
  | .local _ .vmem, ⟨12, _⟩ => ⟨S64, .f32⟩
  | .local _ .vmem, ⟨13, _⟩ => ⟨S1x64x12x1024, .f32⟩
  | .local _ .vmem, ⟨14, _⟩ => ⟨S1x64x12x1024, .f32⟩
  | .local _ .vmem, ⟨15, _⟩ => ⟨S1x64x12x1024, .f32⟩
  | .local _ .vmem, ⟨16, _⟩ => ⟨S1x64x12x1024, .f32⟩
  | _, _ => ⟨S32x64x12x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x3072 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3072x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x12x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x64x12x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x64x12x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S32x64x12x1024_S393216x64 : S32x64x12x1024.ShapeCasts S393216x64
  shapeCasts_S3x64x64_S64x192 : S3x64x64.ShapeCasts S64x192
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  bitsLt_bf16_f32 : FTy.bits .bf16 < FTy.bits .f32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S16384x192_S16384x192_0_0 : ∀ a, (![0, 0] : Fin 2 → Nat) a + S16384x192.size a ≤ S16384x192.size a
  h_S16384x192 : 0 < S16384x192.numel
  packedbf16_S16384x192_S16384x192_0_0 : (Rect.unit (s := S16384x192) ![0, 0] S16384x192.size inb_S16384x192_S16384x192_0_0).PackedRows (EltTy.packing .bf16)
  shapeCasts_S393216x192_S3072x24576 : S393216x192.ShapeCasts S3072x24576
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S1024x24576_S393216x64 : S1024x24576.ShapeCasts S393216x64
  shapeCasts_S393216x64_S32x12x1024x64 : S393216x64.ShapeCasts S32x12x1024x64
  inb_S1x12x1024x64_S1x12x1024x64_0_0_0_0 : ∀ a, (![0, 0, 0, 0] : Fin 4 → Nat) a + S1x12x1024x64.size a ≤ S1x12x1024x64.size a
  h_S1x12x1024x64 : 0 < S1x12x1024x64.numel
  shapeCasts_S1x12x1024x64_S1x12x1024x64 : S1x12x1024x64.ShapeCasts S1x12x1024x64
  inb_S64_S64_0 : ∀ a, (![0] : Fin 1 → Nat) a + S64.size a ≤ S64.size a
  h_S64 : 0 < S64.numel
  shapeCasts_S64_S1x1x1x64 : S64.ShapeCasts S1x1x1x64
  broadcasts_S1x1x1x64_S1x12x1024x64 : S1x1x1x64.Broadcasts S1x12x1024x64
  transposes_S1x12x1024x64_p0_3_1_2_S1x64x12x1024 : S1x12x1024x64.Transposes [0, 3, 1, 2] S1x64x12x1024
  inb_S1x64x12x1024_S1x64x12x1024_0_0_0_0 : ∀ a, (![0, 0, 0, 0] : Fin 4 → Nat) a + S1x64x12x1024.size a ≤ S1x64x12x1024.size a
  h_S1x64x12x1024 : 0 < S1x64x12x1024.numel
  dot_S16384x64_S64x192_S16384x192_1_0_0_1_n_n_wf : DotDims.WF S16384x64 S64x192 S16384x192 [1] [0] [0] [1] [] []
  dot_S1024x3072_S3072x1024_S1024x1024_1_0_0_1_n_n_wf : DotDims.WF S1024x3072 S3072x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S393216x64.size a
  hwx0_0 : ∀ i : grid0.Coords, EltTy.bits .f32 = 32 ∨ (Rect.block (s := S393216x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x192.size a ≤ S393216x192.size a
  hwx0_2 : ∀ i : grid0.Coords, EltTy.bits .bf16 = 32 ∨ (Rect.block (s := S393216x192) S16384x192.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x3072.size a ≤ S1024x3072.size a
  hwx1_0 : ∀ i : grid1.Coords, EltTy.bits .bf16 = 32 ∨ (Rect.block (s := S1024x3072) S1024x3072.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3072x1024.size a ≤ S3072x24576.size a
  hwx1_1 : ∀ i : grid1.Coords, EltTy.bits .bf16 = 32 ∨ (Rect.block (s := S3072x24576) S3072x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x24576.size a
  hwx1_2 : ∀ i : grid1.Coords, EltTy.bits .bf16 = 32 ∨ (Rect.block (s := S1024x24576) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x12x1024x64.size a ≤ S32x12x1024x64.size a
  hwx2_0 : ∀ i : grid2.Coords, EltTy.bits .bf16 = 32 ∨ (Rect.block (s := S32x12x1024x64) S1x12x1024x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x64x12x1024.size a ≤ S32x64x12x1024.size a
  hwx2_2 : ∀ i : grid2.Coords, EltTy.bits .f32 = 32 ∨ (Rect.block (s := S32x64x12x1024) S1x64x12x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x64x12x1024.size a ≤ S32x64x12x1024.size a
  hwx2_3 : ∀ i : grid2.Coords, EltTy.bits .f32 = 32 ∨ (Rect.block (s := S32x64x12x1024) S1x64x12x1024.size (cc2_transform_3 i) (hinb2_3 i)).WholeWords (EltTy.packing .f32)

variable [Facts₀]

def dot_S16384x64_S64x192_S16384x192_1_0_0_1_n_n : DotDims S16384x64 S64x192 S16384x192 where
  lhsContracting := [1]
  rhsContracting := [0]
  lhsNonContracting := [0]
  rhsNonContracting := [1]
  lhsBatch := []
  rhsBatch := []
  wf := dot_S16384x64_S64x192_S16384x192_1_0_0_1_n_n_wf
def dot_S1024x3072_S3072x1024_S1024x1024_1_0_0_1_n_n : DotDims S1024x3072 S3072x1024 S1024x1024 where
  lhsContracting := [1]
  rhsContracting := [0]
  lhsNonContracting := [0]
  rhsNonContracting := [1]
  lhsBatch := []
  rhsBatch := []
  wf := dot_S1024x3072_S3072x1024_S1024x1024_1_0_0_1_n_n_wf

abbrev win0_0 : Pipeline.Window sig grid0 :=
  Pipeline.Window.ofSpec (Memref.whole main_v0) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16384x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1024x3072.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S3072x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v7) S1x12x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S1x64x12x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x64x12x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S32x64x12x1024 : Shape := ⟨4, ![32, 64, 12, 1024]⟩
abbrev S3x64x64 : Shape := ⟨3, ![3, 64, 64]⟩
abbrev S64 : Shape := ⟨1, ![64]⟩
abbrev S1024x3072 : Shape := ⟨2, ![1024, 3072]⟩
abbrev S393216x64 : Shape := ⟨2, ![393216, 64]⟩
abbrev S64x192 : Shape := ⟨2, ![64, 192]⟩
abbrev S393216x192 : Shape := ⟨2, ![393216, 192]⟩
abbrev S3072x24576 : Shape := ⟨2, ![3072, 24576]⟩
abbrev S1024x24576 : Shape := ⟨2, ![1024, 24576]⟩
abbrev S1x64 : Shape := ⟨2, ![1, 64]⟩
abbrev S32x12x1024x64 : Shape := ⟨4, ![32, 12, 1024, 64]⟩

abbrev nBuf : Space → Nat
  | .hbm => 16
  | .vmem => 0
  | .smem => 0
  | _ => 0

abbrev bufTy : (tb : Table) → Fin (tcTables nBuf tb) → BufTy
  | .hbm, ⟨0, _⟩ => ⟨S32x64x12x1024, .f32⟩
  | .hbm, ⟨1, _⟩ => ⟨S3x64x64, .f32⟩
  | .hbm, ⟨2, _⟩ => ⟨S64, .f32⟩
  | .hbm, ⟨3, _⟩ => ⟨S1024x3072, .f32⟩
  | .hbm, ⟨4, _⟩ => ⟨S393216x64, .f32⟩
  | .hbm, ⟨5, _⟩ => ⟨S64x192, .f32⟩
  | .hbm, ⟨6, _⟩ => ⟨S393216x192, .f32⟩
  | .hbm, ⟨7, _⟩ => ⟨S3072x24576, .f32⟩
  | .hbm, ⟨8, _⟩ => ⟨S1024x24576, .f32⟩
  | .hbm, ⟨9, _⟩ => ⟨S393216x64, .f32⟩
  | .hbm, ⟨10, _⟩ => ⟨S1x64, .f32⟩
  | .hbm, ⟨11, _⟩ => ⟨S393216x64, .f32⟩
  | .hbm, ⟨12, _⟩ => ⟨S393216x64, .f32⟩
  | .hbm, ⟨13, _⟩ => ⟨S32x12x1024x64, .f32⟩
  | .hbm, ⟨14, _⟩ => ⟨S32x64x12x1024, .f32⟩
  | .hbm, ⟨15, _⟩ => ⟨S32x64x12x1024, .f32⟩
  | _, _ => ⟨S32x64x12x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S32x64x12x1024_S393216x64 : S32x64x12x1024.ShapeCasts S393216x64
  shapeCasts_S3x64x64_S64x192 : S3x64x64.ShapeCasts S64x192
  shapeCasts_S393216x192_S3072x24576 : S393216x192.ShapeCasts S3072x24576
  shapeCasts_S1024x24576_S393216x64 : S1024x24576.ShapeCasts S393216x64
  bcast_S64_S1x64_1 : S64.BroadcastsInDim S1x64 (![1] : Fin 1 → Fin S1x64.rank)
  bcast_S1x64_S393216x64_0_1 : S1x64.BroadcastsInDim S393216x64 (![0, 1] : Fin 2 → Fin S393216x64.rank)
  shapeCasts_S393216x64_S32x12x1024x64 : S393216x64.ShapeCasts S32x12x1024x64
  transposes_S32x12x1024x64_S32x64x12x1024_0_3_1_2 : S32x12x1024x64.Transposes [0, 3, 1, 2] S32x64x12x1024
  dot_S393216x64_S64x192_S393216x192_1_0_0_1_n_n_wf : DotDims.WF S393216x64 S64x192 S393216x192 [1] [0] [0] [1] [] []
  dot_S1024x3072_S3072x24576_S1024x24576_1_0_0_1_n_n_wf : DotDims.WF S1024x3072 S3072x24576 S1024x24576 [1] [0] [0] [1] [] []

variable [Facts₀]

def dot_S393216x64_S64x192_S393216x192_1_0_0_1_n_n : DotDims S393216x64 S64x192 S393216x192 where
  lhsContracting := [1]
  rhsContracting := [0]
  lhsNonContracting := [0]
  rhsNonContracting := [1]
  lhsBatch := []
  rhsBatch := []
  wf := dot_S393216x64_S64x192_S393216x192_1_0_0_1_n_n_wf
def dot_S1024x3072_S3072x24576_S1024x24576_1_0_0_1_n_n : DotDims S1024x3072 S3072x24576 S1024x24576 where
  lhsContracting := [1]
  rhsContracting := [0]
  lhsNonContracting := [0]
  rhsNonContracting := [1]
  lhsBatch := []
  rhsBatch := []
  wf := dot_S1024x3072_S3072x24576_S1024x24576_1_0_0_1_n_n_wf

class Facts : Prop extends Facts₀ where

variable [Facts]
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.LibMatProduct.lean ====
/-
  The product of an [R, K] array with a [K, C] array over the extended reals, as one function of its two
  operands: at (p, q) the sum over k < K of l(p, k) * r(k, q).

  The programs spell a matrix product in two ways, and at the exact instance each is this function.  The kernel's
  product accumulates into an all-zero array, so its value at (p, q) is 0 plus the contraction sum; the host's
  general contraction is the contraction sum itself.  In both, the sum runs over the contraction's own index type
  and reads the operands through the dimension record's index maps; re-indexed along the bijection of that type with
  the numbers below K it is the plain sum over k.  Only commutativity and associativity of addition are used (a sum
  re-indexed), so nothing here asks the entries to be finite.
-/
import Idealize.ShloMosaic.PureOps.Ideal.Laws
import Idealize.ShloMosaic.Lib.ValueIdx
import proofs.«122153_j17841294148276_1_alg».proof.Proof.LibPlainDot

noncomputable section

namespace MatProduct

open Idealize.ShloMosaic Idealize.ShloMosaic.ValueIdx

variable {R K C : Nat}

/-- The matrix product: entry (p, q) is the sum over k of l(p, k) * r(k, q). -/
def mm (l : (⟨2, ![R, K]⟩ : Shape).Idx → EReal) (r : (⟨2, ![K, C]⟩ : Shape).Idx → EReal) :
    (⟨2, ![R, C]⟩ : Shape).Idx → EReal :=
  fun j => ∑ k : Fin K, l (ix2 (⟨(j 0).val, idx2_lt0 j⟩ : Fin R) k) * r (ix2 k (⟨(j 1).val, idx2_lt1 j⟩ : Fin C))

/-- The product at an index given by its two coordinates. -/
theorem mm_apply (l : (⟨2, ![R, K]⟩ : Shape).Idx → EReal) (r : (⟨2, ![K, C]⟩ : Shape).Idx → EReal)
    (p : Fin R) (q : Fin C) : mm l r (ix2 p q) = ∑ k : Fin K, l (ix2 p k) * r (ix2 k q) := rfl

/-- The host's general contraction of axis 1 of the left operand with axis 0 of the right one, no batch axis, is the
    matrix product. -/
theorem dotGeneral_eq_mm {φ₁ φ₂ : FTy} (d : DotDims ⟨2, ![R, K]⟩ ⟨2, ![K, C]⟩ ⟨2, ![R, C]⟩)
    (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ φ₁) (r : FVec Ideal ⟨2, ![K, C]⟩ φ₂) :
    FloatOps.dotGeneral d prec sched l r = mm l r := by
  funext j
  obtain ⟨p, q, rfl⟩ : ∃ (p : Fin R) (q : Fin C), j = ix2 p q := ⟨j 0, j 1, eq_ix2 j⟩
  rw [Ideal.dotGeneral_apply, mm_apply]
  exact PlainDot.sum_eq d hlb hln hlc hrb hrn hrc l r p q

/-- The kernel's product accumulated into an all-zero array, same contraction, is the matrix product. -/
theorem matmul_zero_eq_mm {φ₁ φ₂ : FTy} (d : DotDims ⟨2, ![R, K]⟩ ⟨2, ![K, C]⟩ ⟨2, ![R, C]⟩)
    (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ φ₁) (r : FVec Ideal ⟨2, ![K, C]⟩ φ₂) :
    FloatOps.matmul d prec l r (constant (F := Ideal) ⟨2, ![R, C]⟩ .f32 0x00000000#32) = mm l r := by
  funext j
  obtain ⟨p, q, rfl⟩ : ∃ (p : Fin R) (q : Fin C), j = ix2 p q := ⟨j 0, j 1, eq_ix2 j⟩
  rw [Ideal.matmul_constant_zero_apply, mm_apply]
  exact PlainDot.sum_eq d hlb hln hlc hrb hrn hrc l r p q

/-- A product of two blocks at an index is the product of the arrays the blocks were cut from at the corresponding
    index, when row `j 0` of the left block is row `i 0` of the left array and column `j 1` of the right block is column
    `i 1` of the right array, the contracted axis whole in both. -/
theorem mm_of_rows_cols {R' C' : Nat}
    (L : (⟨2, ![R, K]⟩ : Shape).Idx → EReal) (Rt : (⟨2, ![K, C]⟩ : Shape).Idx → EReal)
    (l : (⟨2, ![R', K]⟩ : Shape).Idx → EReal) (r : (⟨2, ![K, C']⟩ : Shape).Idx → EReal)
    (j : (⟨2, ![R', C']⟩ : Shape).Idx) (i : (⟨2, ![R, C]⟩ : Shape).Idx)
    (hl : ∀ k : Fin K, l (ix2 (⟨(j 0).val, idx2_lt0 j⟩ : Fin R') k) = L (ix2 (⟨(i 0).val, idx2_lt0 i⟩ : Fin R) k))
    (hr : ∀ k : Fin K, r (ix2 k (⟨(j 1).val, idx2_lt1 j⟩ : Fin C')) = Rt (ix2 k (⟨(i 1).val, idx2_lt1 i⟩ : Fin C))) :
    mm l r j = mm L Rt i :=
  Finset.sum_congr rfl fun k _ => by rw [hl k, hr k]

end MatProduct

end
-- ==== Proof.FirstProduct.lean ====
/-
  What the first pallas_call leaves in its output array: the matrix product of the two arrays it finds.

  The call walks the 393216 rows of the left array in 24 blocks of 16384 rows; at each point it loads the point's
  row block (all 64 columns) and the whole 64 x 192 right array, multiplies them into an all-zero accumulator and
  stores the 16384 x 192 result as the same row block of the output.  The changes of float format on the way are
  the identity over the extended reals.  Row p of block t is row t * 16384 + p of the array, and the contracted
  axis is never split, so the entry written at (t * 16384 + p, q) is the full sum over k < 64 of
  X(t * 16384 + p, k) * W(k, q): the product's entry there.  The 24 row blocks tile the output, so the whole array
  ends at the product.
-/
import proofs.«122153_j17841294148276_1_alg».proof.Proof.Gen.KernelIdeal.Frame
import proofs.«122153_j17841294148276_1_alg».proof.Proof.LibMatProduct
import Idealize.ShloMosaic.Lib.Pipeline.Value

set_option maxRecDepth 16384

noncomputable section

namespace Cert.KernelIdeal.FirstProduct

open Cert.KernelIdeal Cert.KernelIdeal.Gen
open Idealize.ShloMosaic Idealize.ShloMosaic.TcCoe Idealize.ShloMosaic.ValueIdx Idealize.SL.Sem
open Idealize.ShloMosaic.Pipeline (Dat Cfg Window)
open MatProduct

variable (V : (c : Dev nD) → (b : Ref sig .tc) → Buf (Elt Ideal) ((c : Thread nD τ).loc b))

theorem origin2 : (![0, 0] : Fin 2 → Nat) = fun _ => 0 :=
  funext fun a => by match a with | ⟨0, _⟩ => rfl | ⟨1, _⟩ => rfl

/-- The left array as the call finds it. -/
abbrev lhsArr (c : Dev nD) : Vec Ideal S393216x64 .f32 := V c main_v0
/-- The right array as the call finds it. -/
abbrev rhsArr (c : Dev nD) : Vec Ideal S64x192 .f32 := V c main_v1

/-- The body's stored value is the matrix product of its two loaded blocks. -/
theorem payload_eq (x0 : Vec Ideal S16384x64 .f32) (x1 : Vec Ideal S64x192 .f32) :
    k0_pay1 (F := Ideal) x0 x1 = mm x0 x1 := by
  unfold k0_pay1
  show FloatOps.matmul (F := Ideal) (φ₁ := .bf16) (φ₂ := .bf16) dot_S16384x64_S64x192_S16384x192_1_0_0_1_n_n none
      (shapeCast S16384x64 x0 shapeCasts_S16384x64_S16384x64) (shapeCast S64x192 x1 shapeCasts_S64x192_S64x192)
      (constant (F := Ideal) S16384x192 .f32 0x00000000#32) = _
  rw [shapeCast_self, shapeCast_self]
  exact matmul_zero_eq_mm (φ₁ := .bf16) (φ₂ := .bf16) _ none rfl rfl rfl rfl rfl rfl x0 x1

/-- The index maps over the grid: the left and output windows move down the rows with the point, the right window
    stays. -/
theorem index_facts : ∀ t : Fin cfg0.N,
      win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the arrays the call finds. -/
theorem flushed_eq (c : Dev nD) (t : Fin cfg0.N) :
    (dat0 V c).flushed 2 t = ((cfg0.win 2).blk t).view.read (Elt Ideal) (mm (lhsArr V c) (rhsArr V c)) := by
  show (cfg0.win 2).cut (grid0.coords t) ((dat0 V c).after 2 t) = _
  rw [after0_2]
  unfold out0_2
  rw [View.canon_unit_zero origin2]
  simp only [View.ld_unit_zero (S := S16384x64) origin2, View.ld_unit_zero (S := S64x192) origin2]
  rw [payload_eq]
  obtain ⟨e0, e1, e2, e3, e4, e5⟩ := index_facts t
  funext j
  show mm (R := 16384) (K := 64) (C := 192) (iblk0 V c 0 t) (iblk0 V c 1 t) j
    = mm (lhsArr V c) (rhsArr V c) (((cfg0.win 2).blk t).view.emb j)
  refine mm_of_rows_cols _ _ _ _ _ _ (fun k => ?_) (fun k => ?_)
  · show V c main_v0 (((cfg0.win 0).blk t).view.emb (ix2 ⟨(j 0).val, _⟩ k))
      = V c main_v0 (ix2 ⟨((((cfg0.win 2).blk t).view.emb j) 0).val, _⟩ k)
    refine congrArg (V c main_v0) (funext fun a => Fin.ext ?_)
    match a with
    | ⟨0, _⟩ => show win0_0.index t (0 : Fin 2) * 16384 + 1 * (j 0).val = win0_2.index t (0 : Fin 2) * 16384 + 1 * (j 0).val; omega
    | ⟨1, _⟩ => show win0_0.index t (1 : Fin 2) * 64 + 1 * k.val = k.val; omega
  · show V c main_v1 (((cfg0.win 1).blk t).view.emb (ix2 k ⟨(j 1).val, _⟩))
      = V c main_v1 (ix2 k ⟨((((cfg0.win 2).blk t).view.emb j) 1).val, _⟩)
    refine congrArg (V c main_v1) (funext fun a => Fin.ext ?_)
    match a with
    | ⟨0, _⟩ => show win0_1.index t (0 : Fin 2) * 64 + 1 * k.val = k.val; omega
    | ⟨1, _⟩ => show win0_1.index t (1 : Fin 2) * 192 + 1 * (j 1).val = win0_2.index t (1 : Fin 2) * 192 + 1 * (j 1).val; omega

/-- An index of the output array lies in point `t`'s block iff each coordinate lies in the block's range on its axis. -/
theorem mem_block (t : Fin cfg0.N) (i : S393216x192.Idx) :
    i ∈ ((cfg0.win 2).blk t).view.set ↔ ∀ a : Fin 2, win0_2.index t a * S16384x192.size a ≤ (i a).val
      ∧ (i a).val < win0_2.index t a * S16384x192.size a + S16384x192.size a := by
  show i ∈ ((View.whole main_v2).slice (win0_2.rect t)).set ↔ _
  rw [View.set_slice_whole, Rect.mem_set_unit]
  exact Iff.rfl

/-- Every row of the output lies in the row block of the point numbered by the row divided by 16384. -/
theorem covered (i : S393216x192.Idx) :
    ∃ t : Fin cfg0.N, (cfg0.win 2).flush t = true ∧ i ∈ ((cfg0.win 2).blk t).view.set := by
  have hi0 : (i 0).val < 393216 := (i 0).isLt
  have hi1 : (i 1).val < 192 := (i 1).isLt
  obtain ⟨t, ht⟩ : ∃ t : Fin cfg0.N, t.val = (i 0).val / 16384 :=
    ⟨⟨(i 0).val / 16384, by show (i 0).val / 16384 < 24; omega⟩, rfl⟩
  obtain ⟨e0, e1, e2, e3, e4, e5⟩ := index_facts t
  refine ⟨t, flush0_2 t, ?_⟩
  rw [mem_block]
  intro a
  match a with
  | ⟨0, _⟩ =>
    show win0_2.index t (0 : Fin 2) * 16384 ≤ (i 0).val ∧ (i 0).val < win0_2.index t (0 : Fin 2) * 16384 + 16384
    omega
  | ⟨1, _⟩ =>
    show win0_2.index t (1 : Fin 2) * 192 ≤ (i 1).val ∧ (i 1).val < win0_2.index t (1 : Fin 2) * 192 + 192
    omega

/-- The output array after the call is the matrix product of the two arrays the call finds. -/
theorem final (c : Dev nD) : (dat0 V c).arrAt 2 cfg0.N = mm (lhsArr V c) (rhsArr V c) :=
  (dat0 V c).arrAt_eq_of_cover 2 _ (fun t _ => flushed_eq V c t) covered

end Cert.KernelIdeal.FirstProduct

end
-- ==== Proof.SecondProduct.lean ====
/-
  What the second pallas_call leaves in its output array: the matrix product of the two arrays it finds.

  The call walks the 24576 columns of the right array in 24 blocks of 1024 columns; at each point it loads the whole
  1024 x 3072 left array and the point's column block (all 3072 rows) of the right array, multiplies them into an
  all-zero accumulator and stores the 1024 x 1024 result as the same column block of the output.  The change of float
  format of the result is the identity over the extended reals.  Column q of block t is column t * 1024 + q of the
  array, and the contracted axis is never split, so the entry written at (p, t * 1024 + q) is the full sum over
  k < 3072 of A(p, k) * B(k, t * 1024 + q): the product's entry there.  The 24 column blocks tile the output, so the
  whole array ends at the product.
-/
import proofs.«122153_j17841294148276_1_alg».proof.Proof.Gen.KernelIdeal.Frame
import proofs.«122153_j17841294148276_1_alg».proof.Proof.LibMatProduct
import Idealize.ShloMosaic.Lib.Pipeline.Value

set_option maxRecDepth 16384

noncomputable section

namespace Cert.KernelIdeal.SecondProduct

open Cert.KernelIdeal Cert.KernelIdeal.Gen
open Idealize.ShloMosaic Idealize.ShloMosaic.TcCoe Idealize.ShloMosaic.ValueIdx Idealize.SL.Sem
open Idealize.ShloMosaic.Pipeline (Dat Cfg Window)
open MatProduct

variable (V : (c : Dev nD) → (b : Ref sig .tc) → Buf (Elt Ideal) ((c : Thread nD τ).loc b))

theorem origin2 : (![0, 0] : Fin 2 → Nat) = fun _ => 0 :=
  funext fun a => by match a with | ⟨0, _⟩ => rfl | ⟨1, _⟩ => rfl

/-- The left array as the call finds it. -/
abbrev lhsArr (c : Dev nD) : Vec Ideal S1024x3072 .bf16 := V c main_v4
/-- The right array as the call finds it. -/
abbrev rhsArr (c : Dev nD) : Vec Ideal S3072x24576 .bf16 := V c main_v3

/-- The body's stored value is the matrix product of its two loaded blocks. -/
theorem payload_eq (x0 : Vec Ideal S1024x3072 .bf16) (x1 : Vec Ideal S3072x1024 .bf16) :
    k1_pay1 (F := Ideal) x0 x1 = mm x0 x1 := by
  unfold k1_pay1
  show FloatOps.matmul (F := Ideal) (φ₁ := .bf16) (φ₂ := .bf16) dot_S1024x3072_S3072x1024_S1024x1024_1_0_0_1_n_n none
      (shapeCast S1024x3072 x0 shapeCasts_S1024x3072_S1024x3072) (shapeCast S3072x1024 x1 shapeCasts_S3072x1024_S3072x1024)
      (constant (F := Ideal) S1024x1024 .f32 0x00000000#32) = _
  rw [shapeCast_self, shapeCast_self]
  exact matmul_zero_eq_mm (φ₁ := .bf16) (φ₂ := .bf16) _ none rfl rfl rfl rfl rfl rfl x0 x1

/-- The index maps over the grid: the right and output windows move along the columns with the point, the left
    window stays. -/
theorem index_facts : ∀ t : Fin cfg1.N,
      win1_0.index t (0 : Fin 2) = 0
    ∧ win1_0.index t (1 : Fin 2) = 0
    ∧ win1_1.index t (0 : Fin 2) = 0
    ∧ win1_1.index t (1 : Fin 2) = win1_2.index t (1 : Fin 2)
    ∧ win1_2.index t (0 : Fin 2) = 0
    ∧ win1_2.index t (1 : Fin 2) = t.val :=
  (by decide +kernel : ∀ t : Fin grid1.N, _)

/-- What point `t` writes back is block `t` of the product of the arrays the call finds. -/
theorem flushed_eq (c : Dev nD) (t : Fin cfg1.N) :
    (dat1 V c).flushed 2 t = ((cfg1.win 2).blk t).view.read (Elt Ideal) (mm (lhsArr V c) (rhsArr V c)) := by
  show (cfg1.win 2).cut (grid1.coords t) ((dat1 V c).after 2 t) = _
  rw [after1_2]
  unfold out1_2
  rw [View.canon_unit_zero origin2]
  simp only [View.ld_unit_zero (S := S1024x3072) origin2, View.ld_unit_zero (S := S3072x1024) origin2]
  rw [payload_eq]
  obtain ⟨e0, e1, e2, e3, e4, e5⟩ := index_facts t
  funext j
  show mm (R := 1024) (K := 3072) (C := 1024) (iblk1 V c 0 t) (iblk1 V c 1 t) j
    = mm (lhsArr V c) (rhsArr V c) (((cfg1.win 2).blk t).view.emb j)
  refine mm_of_rows_cols _ _ _ _ _ _ (fun k => ?_) (fun k => ?_)
  · show V c main_v4 (((cfg1.win 0).blk t).view.emb (ix2 ⟨(j 0).val, _⟩ k))
      = V c main_v4 (ix2 ⟨((((cfg1.win 2).blk t).view.emb j) 0).val, _⟩ k)
    refine congrArg (V c main_v4) (funext fun a => Fin.ext ?_)
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 3072 + 1 * k.val = k.val; omega
  · show V c main_v3 (((cfg1.win 1).blk t).view.emb (ix2 k ⟨(j 1).val, _⟩))
      = V c main_v3 (ix2 k ⟨((((cfg1.win 2).blk t).view.emb j) 1).val, _⟩)
    refine congrArg (V c main_v3) (funext fun a => Fin.ext ?_)
    match a with
    | ⟨0, _⟩ => show win1_1.index t (0 : Fin 2) * 3072 + 1 * k.val = k.val; omega
    | ⟨1, _⟩ => show win1_1.index t (1 : Fin 2) * 1024 + 1 * (j 1).val = win1_2.index t (1 : Fin 2) * 1024 + 1 * (j 1).val; omega

/-- An index of the output array lies in point `t`'s block iff each coordinate lies in the block's range on its axis. -/
theorem mem_block (t : Fin cfg1.N) (i : S1024x24576.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v5).slice (win1_2.rect t)).set ↔ _
  rw [View.set_slice_whole, Rect.mem_set_unit]
  exact Iff.rfl

/-- Every column of the output lies in the column block of the point numbered by the column divided by 1024. -/
theorem covered (i : S1024x24576.Idx) :
    ∃ t : Fin cfg1.N, (cfg1.win 2).flush t = true ∧ i ∈ ((cfg1.win 2).blk t).view.set := by
  have hi0 : (i 0).val < 1024 := (i 0).isLt
  have hi1 : (i 1).val < 24576 := (i 1).isLt
  obtain ⟨t, ht⟩ : ∃ t : Fin cfg1.N, t.val = (i 1).val / 1024 :=
    ⟨⟨(i 1).val / 1024, by show (i 1).val / 1024 < 24; omega⟩, rfl⟩
  obtain ⟨e0, e1, e2, e3, e4, e5⟩ := index_facts t
  refine ⟨t, flush1_2 t, ?_⟩
  rw [mem_block]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 1024 ≤ (i 1).val ∧ (i 1).val < win1_2.index t (1 : Fin 2) * 1024 + 1024
    omega

/-- The output array after the call is the matrix product of the two arrays the call finds. -/
theorem final (c : Dev nD) : (dat1 V c).arrAt 2 cfg1.N = mm (lhsArr V c) (rhsArr V c) :=
  (dat1 V c).arrAt_eq_of_cover 2 _ (fun t _ => flushed_eq V c t) covered

end Cert.KernelIdeal.SecondProduct

end
-- ==== Proof.ResidualSpec.lean ====
/-
  The last stage as one function of three arrays: move the channel axis from last to second place, add the channel's
  bias, add the residual.

  For Y of shape [B, 12, 1024, 64] (channels last), a bias b of 64 entries and a residual x of shape [B, 64, 12, 1024]
  (channels second), the result at (n, ch, t, v) is (Y(n, t, v, ch) + b(ch)) + x(n, ch, t, v).  The batch extent B is
  a parameter: a block of one batch entry and the whole array are read by the same two index maps.
-/
import Mathlib.Data.EReal.Basic
import Idealize.ShloMosaic.Shape

noncomputable section

namespace ResidualSpec

open Idealize.ShloMosaic

variable {B : Nat}

/-- The channels-last index that a channels-second index (n, ch, t, v) reads: (n, t, v, ch). -/
abbrev toChannelsLast (i : (⟨4, ![B, 64, 12, 1024]⟩ : Shape).Idx) : (⟨4, ![B, 12, 1024, 64]⟩ : Shape).Idx :=
  fun a => match a with
    | ⟨0, _⟩ => ⟨(i 0).val, (i 0).isLt⟩
    | ⟨1, _⟩ => ⟨(i 2).val, (i 2).isLt⟩
    | ⟨2, _⟩ => ⟨(i 3).val, (i 3).isLt⟩
    | ⟨3, _⟩ => ⟨(i 1).val, (i 1).isLt⟩

/-- The channel of a channels-second index, as an index of the bias. -/
abbrev channelOf (i : (⟨4, ![B, 64, 12, 1024]⟩ : Shape).Idx) : (⟨1, ![64]⟩ : Shape).Idx :=
  fun a => match a with
    | ⟨0, _⟩ => ⟨(i 1).val, (i 1).isLt⟩

/-- The last stage: at (n, ch, t, v) the value (Y(n, t, v, ch) + b(ch)) + x(n, ch, t, v). -/
def biasPermuteAdd (Y : (⟨4, ![B, 12, 1024, 64]⟩ : Shape).Idx → EReal) (b : (⟨1, ![64]⟩ : Shape).Idx → EReal)
    (x : (⟨4, ![B, 64, 12, 1024]⟩ : Shape).Idx → EReal) : (⟨4, ![B, 64, 12, 1024]⟩ : Shape).Idx → EReal :=
  fun i => (Y (toChannelsLast i) + b (channelOf i)) + x i

theorem biasPermuteAdd_apply (Y : (⟨4, ![B, 12, 1024, 64]⟩ : Shape).Idx → EReal) (b : (⟨1, ![64]⟩ : Shape).Idx → EReal)
    (x : (⟨4, ![B, 64, 12, 1024]⟩ : Shape).Idx → EReal) (i : (⟨4, ![B, 64, 12, 1024]⟩ : Shape).Idx) :
    biasPermuteAdd Y b x i = (Y (toChannelsLast i) + b (channelOf i)) + x i := rfl

end ResidualSpec

end
-- ==== Proof.LastStage.lean ====
/-
  What the third pallas_call leaves in its output array: the bias added along the channel axis, that axis moved from
  last to second place, and the residual added.

  The call walks the 32 batch entries; at each point it loads the entry's [1, 12, 1024, 64] block of the channels-last
  array, the whole bias, and the entry's [1, 64, 12, 1024] block of the residual.  The body widens the first block
  (the identity over the extended reals), adds the bias broadcast along the last axis, transposes with the permutation
  (0, 3, 1, 2), adds the residual block and stores the result as the entry's block of the output.  So at
  (0, ch, t, v) of the block it writes (Y(0, t, v, ch) + b(ch)) + x(0, ch, t, v), and entry n's block of each array
  is the array at batch coordinate n, the other three axes whole: the value written at (n, ch, t, v) of the output
  is the last stage's value there.  The 32 blocks tile the output.
-/
import proofs.«122153_j17841294148276_1_alg».proof.Proof.Gen.KernelIdeal.Frame
import proofs.«122153_j17841294148276_1_alg».proof.Proof.ResidualSpec
import Idealize.ShloMosaic.Lib.Pipeline.Value
import Idealize.ShloMosaic.PureOps.Ideal.Laws

set_option maxRecDepth 16384

noncomputable section

namespace Cert.KernelIdeal.LastStage

open Cert.KernelIdeal Cert.KernelIdeal.Gen
open Idealize.ShloMosaic Idealize.ShloMosaic.TcCoe Idealize.SL.Sem
open Idealize.ShloMosaic.Pipeline (Dat Cfg Window)
open ResidualSpec

variable (V : (c : Dev nD) → (b : Ref sig .tc) → Buf (Elt Ideal) ((c : Thread nD τ).loc b))

theorem origin4 : (![0, 0, 0, 0] : Fin 4 → Nat) = fun _ => 0 :=
  funext fun a => by match a with | ⟨0, _⟩ => rfl | ⟨1, _⟩ => rfl | ⟨2, _⟩ => rfl | ⟨3, _⟩ => rfl
theorem origin1 : (![0] : Fin 1 → Nat) = fun _ => 0 :=
  funext fun a => by match a with | ⟨0, _⟩ => rfl

/-- The channels-last array as the call finds it. -/
abbrev lastArr (c : Dev nD) : Vec Ideal S32x12x1024x64 .bf16 := V c main_v7
/-- The bias as the call finds it. -/
abbrev biasArr (c : Dev nD) : Vec Ideal S64 .f32 := V c main_arg2
/-- The residual as the call finds it. -/
abbrev resArr (c : Dev nD) : Vec Ideal S32x64x12x1024 .f32 := V c main_arg0

/-- The [1, 1, 1, 64] index with the channel of a channels-last index. -/
abbrev unitChannel (z : S1x12x1024x64.Idx) : S1x1x1x64.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨(z 3).val, (z 3).isLt⟩
/-- The bias index with the channel of a channels-last index. -/
abbrev lastChannel (z : S1x12x1024x64.Idx) : S64.Idx := fun a => match a with
  | ⟨0, _⟩ => ⟨(z 3).val, (z 3).isLt⟩

/-- The transpose with permutation (0, 3, 1, 2) at (n, ch, t, v) reads its operand at (n, t, v, ch). -/
theorem transpose_read (v : FVec Ideal S1x12x1024x64 .f32) (y : S1x64x12x1024.Idx) :
    transpose S1x64x12x1024 [0, 3, 1, 2] v transposes_S1x12x1024x64_p0_3_1_2_S1x64x12x1024 y = v (toChannelsLast y) :=
  transpose_apply [0, 3, 1, 2] v transposes_S1x12x1024x64_p0_3_1_2_S1x64x12x1024 y (toChannelsLast y) (fun b => match b with
    | ⟨0, _⟩ => rfl
    | ⟨1, _⟩ => rfl
    | ⟨2, _⟩ => rfl
    | ⟨3, _⟩ => rfl)

/-- The bias, reshaped to [1, 1, 1, 64] and broadcast over a block, at a channels-last index is the bias at the
    index's channel. -/
theorem bias_read (x1 : Vec Ideal S64 .f32) (z : S1x12x1024x64.Idx) :
    broadcastTo S1x12x1024x64 (shapeCast S1x1x1x64 x1 shapeCasts_S64_S1x1x1x64) broadcasts_S1x1x1x64_S1x12x1024x64 z
      = x1 (lastChannel z) := by
  refine (broadcastTo_apply _ broadcasts_S1x1x1x64_S1x12x1024x64 z (unitChannel z) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show 0 = if (1 : Nat) = 1 then 0 else _; rw [if_pos rfl]
    | ⟨3, _⟩ => by show (z 3).val = if (64 : Nat) = 1 then 0 else _; rw [if_neg (by decide)]; rfl)).trans ?_
  exact shapeCast_apply x1 shapeCasts_S64_S1x1x1x64 (unitChannel z) (lastChannel z)
    (by rewrite [Shape.rowMajor_val_one, Shape.rowMajor_val_four]; show (z 3).val = ((0 * 1 + 0) * 1 + 0) * 64 + (z 3).val; omega)

/-- The body's stored value at (0, ch, t, v): (Y(0, t, v, ch) + b(ch)) + x(0, ch, t, v) of its three loaded blocks. -/
theorem payload_apply (x0 : Vec Ideal S1x12x1024x64 .bf16) (x1 : Vec Ideal S64 .f32) (x2 : Vec Ideal S1x64x12x1024 .f32)
    (y : S1x64x12x1024.Idx) :
    k2_pay1 (F := Ideal) x0 x1 x2 y = (x0 (toChannelsLast y) + x1 (lastChannel (toChannelsLast y))) + x2 y := by
  unfold k2_pay1
  simp only [addf, extf, shapeCast_self, Ideal.addf_def, Ideal.extf_def]
  rw [transpose_read]
  simp only [addf, extf, Ideal.addf_def, Ideal.extf_def]
  rw [bias_read]

/-- The index maps over the grid: the channels-last window, the residual window and the output window move along
    the batch axis with the point, their other three axes whole; the bias window stays. -/
theorem index_facts : ∀ t : Fin cfg2.N,
      win2_0.index t (0 : Fin 4) = win2_3.index t (0 : Fin 4)
    ∧ win2_0.index t (1 : Fin 4) = 0
    ∧ win2_0.index t (2 : Fin 4) = 0
    ∧ win2_0.index t (3 : Fin 4) = 0
    ∧ win2_1.index t (0 : Fin 1) = 0
    ∧ win2_2.index t (0 : Fin 4) = win2_3.index t (0 : Fin 4)
    ∧ win2_2.index t (1 : Fin 4) = 0
    ∧ win2_2.index t (2 : Fin 4) = 0
    ∧ win2_2.index t (3 : Fin 4) = 0
    ∧ win2_3.index t (0 : Fin 4) = t.val
    ∧ win2_3.index t (1 : Fin 4) = 0
    ∧ win2_3.index t (2 : Fin 4) = 0
    ∧ win2_3.index t (3 : Fin 4) = 0 :=
  (by decide +kernel : ∀ t : Fin grid2.N, _)

/-- What point `t` writes back is block `t` of the last stage's function of the arrays the call finds. -/
theorem flushed_eq (c : Dev nD) (t : Fin cfg2.N) :
    (dat2 V c).flushed 3 t
      = ((cfg2.win 3).blk t).view.read (Elt Ideal) (biasPermuteAdd (lastArr V c) (biasArr V c) (resArr V c)) := by
  show (cfg2.win 3).cut (grid2.coords t) ((dat2 V c).after 3 t) = _
  rw [after2_3]
  unfold out2_3
  rw [View.canon_unit_zero origin4]
  simp only [View.ld_unit_zero (S := S1x12x1024x64) origin4, View.ld_unit_zero (S := S64) origin1,
    View.ld_unit_zero (S := S1x64x12x1024) origin4]
  obtain ⟨e0, e1, e2, e3, e4, e5, e6, e7, e8, e9, e10, e11, e12⟩ := index_facts t
  funext j
  show k2_pay1 (F := Ideal) (iblk2 V c 0 t) (iblk2 V c 1 t) (iblk2 V c 2 t) j
    = biasPermuteAdd (lastArr V c) (biasArr V c) (resArr V c) (((cfg2.win 3).blk t).view.emb j)
  rw [payload_apply, biasPermuteAdd_apply]
  have h0 : ((cfg2.win 0).blk t).view.emb (toChannelsLast j) = toChannelsLast (((cfg2.win 3).blk t).view.emb j) := by
    funext a; apply Fin.ext
    match a with
    | ⟨0, _⟩ => show win2_0.index t (0 : Fin 4) * 1 + 1 * (j 0).val = win2_3.index t (0 : Fin 4) * 1 + 1 * (j 0).val; omega
    | ⟨1, _⟩ => show win2_0.index t (1 : Fin 4) * 12 + 1 * (j 2).val = win2_3.index t (2 : Fin 4) * 12 + 1 * (j 2).val; omega
    | ⟨2, _⟩ => show win2_0.index t (2 : Fin 4) * 1024 + 1 * (j 3).val = win2_3.index t (3 : Fin 4) * 1024 + 1 * (j 3).val; omega
    | ⟨3, _⟩ => show win2_0.index t (3 : Fin 4) * 64 + 1 * (j 1).val = win2_3.index t (1 : Fin 4) * 64 + 1 * (j 1).val; omega
  have h1 : ((cfg2.win 1).blk t).view.emb (lastChannel (toChannelsLast j)) = channelOf (((cfg2.win 3).blk t).view.emb j) := by
    funext a; apply Fin.ext
    match a with
    | ⟨0, _⟩ => show win2_1.index t (0 : Fin 1) * 64 + 1 * (j 1).val = win2_3.index t (1 : Fin 4) * 64 + 1 * (j 1).val; omega
  have h2 : ((cfg2.win 2).blk t).view.emb j = ((cfg2.win 3).blk t).view.emb j := by
    funext a; apply Fin.ext
    match a with
    | ⟨0, _⟩ => show win2_2.index t (0 : Fin 4) * 1 + 1 * (j 0).val = win2_3.index t (0 : Fin 4) * 1 + 1 * (j 0).val; omega
    | ⟨1, _⟩ => show win2_2.index t (1 : Fin 4) * 64 + 1 * (j 1).val = win2_3.index t (1 : Fin 4) * 64 + 1 * (j 1).val; omega
    | ⟨2, _⟩ => show win2_2.index t (2 : Fin 4) * 12 + 1 * (j 2).val = win2_3.index t (2 : Fin 4) * 12 + 1 * (j 2).val; omega
    | ⟨3, _⟩ => show win2_2.index t (3 : Fin 4) * 1024 + 1 * (j 3).val = win2_3.index t (3 : Fin 4) * 1024 + 1 * (j 3).val; omega
  show (lastArr V c (((cfg2.win 0).blk t).view.emb (toChannelsLast j))
        + biasArr V c (((cfg2.win 1).blk t).view.emb (lastChannel (toChannelsLast j))))
      + resArr V c (((cfg2.win 2).blk t).view.emb j)
    = (lastArr V c (toChannelsLast (((cfg2.win 3).blk t).view.emb j))
        + biasArr V c (channelOf (((cfg2.win 3).blk t).view.emb j)))
      + resArr V c (((cfg2.win 3).blk t).view.emb j)
  rw [h0, h1, h2]

/-- An index of the output array lies in point `t`'s block iff each coordinate lies in the block's range on its axis. -/
theorem mem_block (t : Fin cfg2.N) (i : S32x64x12x1024.Idx) :
    i ∈ ((cfg2.win 3).blk t).view.set ↔ ∀ a : Fin 4, win2_3.index t a * S1x64x12x1024.size a ≤ (i a).val
      ∧ (i a).val < win2_3.index t a * S1x64x12x1024.size a + S1x64x12x1024.size a := by
  show i ∈ ((View.whole main_v8).slice (win2_3.rect t)).set ↔ _
  rw [View.set_slice_whole, Rect.mem_set_unit]
  exact Iff.rfl

/-- Every index of the output lies in the block of the point numbered by its batch coordinate. -/
theorem covered (i : S32x64x12x1024.Idx) :
    ∃ t : Fin cfg2.N, (cfg2.win 3).flush t = true ∧ i ∈ ((cfg2.win 3).blk t).view.set := by
  have hi0 : (i 0).val < 32 := (i 0).isLt
  have hi1 : (i 1).val < 64 := (i 1).isLt
  have hi2 : (i 2).val < 12 := (i 2).isLt
  have hi3 : (i 3).val < 1024 := (i 3).isLt
  obtain ⟨t, ht⟩ : ∃ t : Fin cfg2.N, t.val = (i 0).val := ⟨⟨(i 0).val, by show (i 0).val < 32; omega⟩, rfl⟩
  obtain ⟨e0, e1, e2, e3, e4, e5, e6, e7, e8, e9, e10, e11, e12⟩ := index_facts t
  refine ⟨t, flush2_3 t, ?_⟩
  rw [mem_block]
  intro a
  match a with
  | ⟨0, _⟩ =>
    show win2_3.index t (0 : Fin 4) * 1 ≤ (i 0).val ∧ (i 0).val < win2_3.index t (0 : Fin 4) * 1 + 1
    omega
  | ⟨1, _⟩ =>
    show win2_3.index t (1 : Fin 4) * 64 ≤ (i 1).val ∧ (i 1).val < win2_3.index t (1 : Fin 4) * 64 + 64
    omega
  | ⟨2, _⟩ =>
    show win2_3.index t (2 : Fin 4) * 12 ≤ (i 2).val ∧ (i 2).val < win2_3.index t (2 : Fin 4) * 12 + 12
    omega
  | ⟨3, _⟩ =>
    show win2_3.index t (3 : Fin 4) * 1024 ≤ (i 3).val ∧ (i 3).val < win2_3.index t (3 : Fin 4) * 1024 + 1024
    omega

/-- The output array after the call is the last stage's function of the three arrays the call finds. -/
theorem final (c : Dev nD) :
    (dat2 V c).arrAt 3 cfg2.N = biasPermuteAdd (lastArr V c) (biasArr V c) (resArr V c) :=
  (dat2 V c).arrAt_eq_of_cover 3 _ (fun t _ => flushed_eq V c t) covered

end Cert.KernelIdeal.LastStage

end
-- ==== Proof.KernelValue.lean ====
/-
  The contents of the kernel program's result buffer after the run, as one function of the four argument arrays.

  The program is three pallas_calls among reshapes.  Reading back from the end: the result buffer is the third
  call's output, the last stage's function of the channels-last array, the bias and x as that call finds them.  The
  bias and x are untouched arguments.  The channels-last array is two reshapes of the second call's output, which is
  the matrix product of the filter (converted to a narrower float format before the call: the identity over the
  extended reals) with a reshape of the first call's output, itself the matrix product of a reshape of x with a reshape
  of the weight.
-/
import proofs.«122153_j17841294148276_1_alg».proof.Proof.Gen.KernelIdeal.Frame
import proofs.«122153_j17841294148276_1_alg».proof.Proof.FirstProduct
import proofs.«122153_j17841294148276_1_alg».proof.Proof.SecondProduct
import proofs.«122153_j17841294148276_1_alg».proof.Proof.LastStage
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo
open MatProduct ResidualSpec

variable (m : (ℓ : Loc nD τ sig) → Buf (Elt Ideal) ℓ) (ρ : Dev nD → PrngReg)

/-- The chain of reshapes and matrix products before the last stage, as a function of x, the weight and the
    filter: the second product reshaped to [393216, 64]. -/
def chain (x0 : Vec Ideal S32x64x12x1024 .f32) (x1 : Vec Ideal S3x64x64 .f32) (x3 : Vec Ideal S1024x3072 .f32) :
    Vec Ideal S393216x64 .bf16 :=
  shapeCast S393216x64
    (mm x3 (shapeCast S3072x24576
      (mm (shapeCast S393216x64 x0 shapeCasts_S32x64x12x1024_S393216x64) (shapeCast S64x192 x1 shapeCasts_S3x64x64_S64x192))
      shapeCasts_S393216x192_S3072x24576))
    shapeCasts_S1024x24576_S393216x64

/-- The first call finds x reshaped to [393216, 64]. -/
theorem entry0_lhs (c : Dev nD) :
    FirstProduct.lhsArr (V1 m ρ) c
      = shapeCast S393216x64 (m ((c : Thread nD τ).loc main_arg0)) shapeCasts_S32x64x12x1024_S393216x64 := by
  show StableHlo.after hostOps0 (W0 m ρ c) (Proc.devRef .tc main_v0) = _
  after_results
  rfl

/-- The first call finds the weight reshaped to [64, 192]. -/
theorem entry0_rhs (c : Dev nD) :
    FirstProduct.rhsArr (V1 m ρ) c
      = shapeCast S64x192 (m ((c : Thread nD τ).loc main_arg1)) shapeCasts_S3x64x64_S64x192 := by
  show StableHlo.after hostOps0 (W0 m ρ c) (Proc.devRef .tc main_v1) = _
  after_results
  rfl

/-- The first call's output buffer at its exit is the first product. -/
theorem exit0 (c : Dev nD) :
    W2 m ρ c (Proc.devRef .tc main_v2)
      = mm (shapeCast S393216x64 (m ((c : Thread nD τ).loc main_arg0)) shapeCasts_S32x64x12x1024_S393216x64)
          (shapeCast S64x192 (m ((c : Thread nD τ).loc main_arg1)) shapeCasts_S3x64x64_S64x192) := by
  rw [← entry0_lhs m ρ c, ← entry0_rhs m ρ c]
  exact (W2_arr m ρ c 2).trans (FirstProduct.final (V1 m ρ) c)

/-- The filter's buffer is still the argument at the first call's exit. -/
theorem exit0_filter (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

/-- The second call finds the filter, its change of float format the identity. -/
theorem entry1_lhs (c : Dev nD) :
    SecondProduct.lhsArr (V3 m ρ) c = m ((c : Thread nD τ).loc main_arg3) := by
  show StableHlo.after hostOps1 (W2 m ρ c) (Proc.devRef .tc main_v4) = _
  after_results
  rw [exit0_filter]
  rfl

/-- The second call finds the first product reshaped to [3072, 24576]. -/
theorem entry1_rhs (c : Dev nD) :
    SecondProduct.rhsArr (V3 m ρ) c
      = shapeCast S3072x24576 (W2 m ρ c (Proc.devRef .tc main_v2)) shapeCasts_S393216x192_S3072x24576 := by
  show StableHlo.after hostOps1 (W2 m ρ c) (Proc.devRef .tc main_v3) = _
  after_results
  rfl

/-- The second call's output buffer at its exit is the second product. -/
theorem exit1 (c : Dev nD) :
    W4 m ρ c (Proc.devRef .tc main_v5)
      = mm (m ((c : Thread nD τ).loc main_arg3))
          (shapeCast S3072x24576
            (mm (shapeCast S393216x64 (m ((c : Thread nD τ).loc main_arg0)) shapeCasts_S32x64x12x1024_S393216x64)
              (shapeCast S64x192 (m ((c : Thread nD τ).loc main_arg1)) shapeCasts_S3x64x64_S64x192))
            shapeCasts_S393216x192_S3072x24576) := by
  refine ((W4_arr m ρ c 2).trans (SecondProduct.final (V3 m ρ) c)).trans ?_
  rw [entry1_lhs, entry1_rhs, exit0]

/-- The third call finds the second product reshaped to [393216, 64] and then to [32, 12, 1024, 64]. -/
theorem entry2_last (c : Dev nD) :
    LastStage.lastArr (V5 m ρ) c
      = shapeCast S32x12x1024x64
          (shapeCast S393216x64 (W4 m ρ c (Proc.devRef .tc main_v5)) shapeCasts_S1024x24576_S393216x64)
          shapeCasts_S393216x64_S32x12x1024x64 := by
  show StableHlo.after hostOps2 (W4 m ρ c) (Proc.devRef .tc main_v7) = _
  after_results
  rfl

/-- The third call finds the bias as launched. -/
theorem entry2_bias (c : Dev nD) : LastStage.biasArr (V5 m ρ) c = m ((c : Thread nD τ).loc main_arg2) :=
  ((W6_arr m ρ c 1).trans (((dat2 (V5 m ρ) c).arrAt_in 1 rfl _).trans (A_eq2 (V5 m ρ) c 1))).symm.trans
    (W6_main_arg2 m ρ c)

/-- The third call finds x as launched. -/
theorem entry2_res (c : Dev nD) : LastStage.resArr (V5 m ρ) c = m ((c : Thread nD τ).loc main_arg0) :=
  ((W6_arr m ρ c 2).trans (((dat2 (V5 m ρ) c).arrAt_in 2 rfl _).trans (A_eq2 (V5 m ρ) c 2))).symm.trans
    (W6_main_arg0 m ρ c)

/-- The result buffer after the run: the last stage's function of the chain reshaped to [32, 12, 1024, 64], the bias
    and x. -/
theorem result (c : Dev nD) :
    W6 m ρ c (Proc.devRef .tc main_v8)
      = biasPermuteAdd
          (shapeCast S32x12x1024x64
            (chain (m ((c : Thread nD τ).loc main_arg0)) (m ((c : Thread nD τ).loc main_arg1)) (m ((c : Thread nD τ).loc main_arg3)))
            shapeCasts_S393216x64_S32x12x1024x64)
          (m ((c : Thread nD τ).loc main_arg2)) (m ((c : Thread nD τ).loc main_arg0)) := by
  refine ((W6_arr m ρ c 3).trans (LastStage.final (V5 m ρ) c)).trans ?_
  rw [entry2_last, entry2_bias, entry2_res, exit1]
  rfl

end Cert.KernelIdeal.Result

end
-- ==== Proof.RefStages.lean ====
/-
  The reference's result as the last stage applied to its product chain.

  The reference reshapes x to [393216, 64] and the weight to [64, 192], multiplies them, reshapes the product to
  [3072, 24576], multiplies the filter by it, reshapes that product to [393216, 64], adds the bias along the last
  axis, reshapes to [32, 12, 1024, 64], transposes with (0, 3, 1, 2) and adds x.  Both general contractions are the
  matrix product.  The bias is added before the last reshape; that reshape keeps the last axis (64 entries, both
  before and after), so index (n, t, v, ch) reads row (n * 12 + t) * 1024 + v, column ch of the [393216, 64] array:
  adding the bias at column ch there and reshaping is reshaping and then adding the bias at channel ch.  Hence the
  result at (n, ch, t, v) is (Z(n, t, v, ch) + b(ch)) + x(n, ch, t, v) with Z the reshaped second product: the last
  stage's function of Z, the bias and x.
-/
import proofs.«122153_j17841294148276_1_alg».proof.Proof.Gen.ReferenceIdeal.Run
import proofs.«122153_j17841294148276_1_alg».proof.Proof.Gen.ReferenceIdeal.Read
import proofs.«122153_j17841294148276_1_alg».proof.Proof.LibMatProduct
import proofs.«122153_j17841294148276_1_alg».proof.Proof.ResidualSpec

noncomputable section

namespace Cert.ReferenceIdeal.Stages

open Cert.ReferenceIdeal Cert.ReferenceIdeal.Gen Cert.ReferenceIdeal.Read
open Idealize.ShloMosaic Idealize.ShloMosaic.TcCoe Idealize.SL.Sem
open MatProduct ResidualSpec

/-- The second product reshaped to [393216, 64], as a function of x, the weight and the filter: the chain of
    reshapes and matrix products the reference applies before the bias. -/
def chain (x0 : Vec Ideal S32x64x12x1024 .f32) (x1 : Vec Ideal S3x64x64 .f32) (x3 : Vec Ideal S1024x3072 .f32) :
    Vec Ideal S393216x64 .f32 :=
  shapeCast S393216x64
    (mm x3 (shapeCast S3072x24576
      (mm (shapeCast S393216x64 x0 shapeCasts_S32x64x12x1024_S393216x64) (shapeCast S64x192 x1 shapeCasts_S3x64x64_S64x192))
      shapeCasts_S393216x192_S3072x24576))
    shapeCasts_S1024x24576_S393216x64

/-- The reference's stage before the bias is that chain: each general contraction is the matrix product. -/
theorem val_main_v5_eq (x0 : Vec Ideal S32x64x12x1024 .f32) (x1 : Vec Ideal S3x64x64 .f32) (x3 : Vec Ideal S1024x3072 .f32) :
    val_main_v5 (F := Ideal) x0 x1 x3 = chain x0 x1 x3 := by
  unfold val_main_v5 val_main_v4 val_main_v3 val_main_v2 val_main_v1 val_main_v0 chain
  rw [show Host.dotGeneral (F := Ideal) dot_S393216x64_S64x192_S393216x192_1_0_0_1_n_n none
        (shapeCast S393216x64 x0 shapeCasts_S32x64x12x1024_S393216x64) (shapeCast S64x192 x1 shapeCasts_S3x64x64_S64x192)
      = mm (shapeCast S393216x64 x0 shapeCasts_S32x64x12x1024_S393216x64) (shapeCast S64x192 x1 shapeCasts_S3x64x64_S64x192)
      from dotGeneral_eq_mm (φ₁ := .f32) (φ₂ := .f32) _ none _ rfl rfl rfl rfl rfl rfl _ _]
  exact congrArg (fun y => shapeCast S393216x64 y shapeCasts_S1024x24576_S393216x64)
    (dotGeneral_eq_mm (φ₁ := .f32) (φ₂ := .f32) dot_S1024x3072_S3072x24576_S1024x24576_1_0_0_1_n_n none _ rfl rfl rfl rfl rfl rfl x3 _)

/-- The reference's result is the last stage of the chain reshaped to [32, 12, 1024, 64], the bias and x. -/
theorem val_main_v11_eq_lastStage (x0 : Vec Ideal S32x64x12x1024 .f32) (x1 : Vec Ideal S3x64x64 .f32)
    (x2 : Vec Ideal S64 .f32) (x3 : Vec Ideal S1024x3072 .f32) :
    val_main_v11 (F := Ideal) x0 x1 x2 x3
      = biasPermuteAdd (shapeCast S32x12x1024x64 (chain x0 x1 x3) shapeCasts_S393216x64_S32x12x1024x64) x2 x0 := by
  rw [← val_main_v5_eq]
  funext i
  rw [val_main_v11_apply, val_main_v10_apply, val_main_v9_apply, val_main_v8_apply, val_main_v7_apply, val_main_v6_apply,
    biasPermuteAdd_apply]
  have hi0 : (i 0).val < 32 := (i 0).isLt
  have hi1 : (i 1).val < 64 := (i 1).isLt
  have hi2 : (i 2).val < 12 := (i 2).isLt
  have hi3 : (i 3).val < 1024 := (i 3).isLt
  have hperm : idx_main_v10 i = toChannelsLast i :=
    funext fun a => by match a with | ⟨0, _⟩ => rfl | ⟨1, _⟩ => rfl | ⟨2, _⟩ => rfl | ⟨3, _⟩ => rfl
  have hchan : idx_main_v6 (idx_main_v7 (idx_main_v9 (idx_main_v10 i))) = channelOf i :=
    funext fun a => Fin.ext (by
      match a with
      | ⟨0, _⟩ =>
        show ((((i 0).val * 12 + (i 2).val) * 1024 + (i 3).val) * 64 + (i 1).val) % 64 = (i 1).val
        omega)
  rw [hchan, ← hperm]
  generalize val_main_v5 (F := Ideal) x0 x1 x3 = z
  rw [shapeCast_apply z shapeCasts_S393216x64_S32x12x1024x64 (idx_main_v10 i) (idx_main_v9 (idx_main_v10 i))
    (by rewrite [Shape.rowMajor_val_two, Shape.rowMajor_val_four]
        show ((((i 0).val * 12 + (i 2).val) * 1024 + (i 3).val) * 64 + (i 1).val) / 64 * 64
            + ((((i 0).val * 12 + (i 2).val) * 1024 + (i 3).val) * 64 + (i 1).val) % 64
          = (((i 0).val * 12 + (i 2).val) * 1024 + (i 3).val) * 64 + (i 1).val
        omega)]
  rfl

end Cert.ReferenceIdeal.Stages

end
-- ==== Proof.lean ====
/-
  A spatial graph-convolution layer: two dense matrix products through a chain of reshapes, a bias, a transpose and a
  residual, computed by three pallas_calls, against the same layer written with plain array operations.

  Over the extended reals both programs compute, at (n, ch, t, v) of the [32, 64, 12, 1024] result,
      (Z(n, t, v, ch) + bias(ch)) + x(n, ch, t, v),
  where Z is the [393216, 64] array  reshape(filter * reshape(reshape(x) * reshape(weight)))  read through the reshape
  to [32, 12, 1024, 64], and * is the matrix product (entry (p, q) the sum over the whole contracted axis of
  l(p, k) * r(k, q)).

  The kernel program: the first call multiplies row blocks of reshape(x) by reshape(weight); the second multiplies the
  filter by column blocks of the reshaped first product; neither splits the contracted axis, so each block entry is
  the full contraction sum, and the blocks tile the outputs.  The changes of float format around the calls are the
  identity over the extended reals.  The third call adds the bias along the last axis, transposes and adds x, one batch
  entry per point.  The reference multiplies whole arrays and adds the bias BEFORE the last reshape; that reshape keeps
  the last axis, so the bias lands on the same channel either way.  The two sides then agree term by term: the same
  sums, the same two additions in the same order.  No law that fails at an infinity is used (only a sum re-indexed),
  so the precondition that the inputs are finite is never opened.

  The three frames: the two kernel programs' are the generated frame certificates; the reference's is its generated
  run with the result dropped.  The idealization rewrote nothing, so there is nothing to preserve.
-/
import proofs.«122153_j17841294148276_1_alg».proof.Defs
import proofs.«122153_j17841294148276_1_alg».proof.Proof.Gen.Kernel
import proofs.«122153_j17841294148276_1_alg».proof.Proof.Gen.Kernel.Skeleton
import proofs.«122153_j17841294148276_1_alg».proof.Proof.Gen.Kernel.Launch
import proofs.«122153_j17841294148276_1_alg».proof.Proof.Gen.Kernel.Points
import proofs.«122153_j17841294148276_1_alg».proof.Proof.Gen.Kernel.Frame
import proofs.«122153_j17841294148276_1_alg».proof.Proof.Gen.KernelIdeal
import proofs.«122153_j17841294148276_1_alg».proof.Proof.Gen.KernelIdeal.Skeleton
import proofs.«122153_j17841294148276_1_alg».proof.Proof.Gen.KernelIdeal.Launch
import proofs.«122153_j17841294148276_1_alg».proof.Proof.Gen.KernelIdeal.Points
import proofs.«122153_j17841294148276_1_alg».proof.Proof.Gen.KernelIdeal.Frame
import proofs.«122153_j17841294148276_1_alg».proof.Proof.Gen.ReferenceIdeal
import proofs.«122153_j17841294148276_1_alg».proof.Proof.Gen.ReferenceIdeal.Run
import proofs.«122153_j17841294148276_1_alg».proof.Proof.Gen.ReferenceIdeal.Read
import proofs.«122153_j17841294148276_1_alg».proof.Proof.Gen.Pre_finite_inputs
import proofs.«122153_j17841294148276_1_alg».proof.Proof.ResultRun
import proofs.«122153_j17841294148276_1_alg».proof.Proof.KernelValue
import proofs.«122153_j17841294148276_1_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run from memories that agree on the four arguments, end with the result at the last stage's
    function of the reshaped product chain, the bias and x. -/
theorem algebraic : Cert.algebraic_KernelIdeal_ReferenceIdeal := by
  intro m ρ m' ρ' _ hagree
  refine ⟨fun c => Cert.KernelIdeal.Gen.W6 m ρ c (Proc.devRef .tc Cert.KernelIdeal.main_v8),
    Cert.KernelIdeal.ResultRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  show _ = Cert.KernelIdeal.Gen.W6 m ρ c (Proc.devRef .tc Cert.KernelIdeal.main_v8)
  rw [Cert.KernelIdeal.Result.result m ρ c]
  exact (Cert.ReferenceIdeal.Read.val_main_v11_eq _ _ _ _).trans
    (Cert.ReferenceIdeal.Stages.val_main_v11_eq_lastStage _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
